-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x4096 .f32) (main_arg5 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x2048x1024 .f32) (main_arg1 : FVec F S8 .f32) (main_arg2 : FVec F S4096x8 .f32) (main_arg3 : FVec F S4096 .f32) (main_arg4 : FVec F S1024x4096 .f32) (main_arg5 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8x2048x1024 : Shape := ⟨3, ![8, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S16384x1024 : Shape := ⟨2, ![16384, 1024]⟩
abbrev S16384x8 : Shape := ⟨2, ![16384, 8]⟩
abbrev S1x8 : Shape := ⟨2, ![1, 8]⟩
abbrev S1x4096 : Shape := ⟨2, ![1, 4096]⟩
abbrev S1x1024 : Shape := ⟨2, ![1, 1024]⟩
abbrev S256x8 : Shape := ⟨2, ![256, 8]⟩
abbrev S256x1024 : Shape := ⟨2, ![256, 1024]⟩
abbrev S256x4096 : Shape := ⟨2, ![256, 4096]⟩

abbrev nBuf : Space → Nat
  | .hbm => 15
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S16384x1024, .f32⟩
  | .hbm, ⟨7, _⟩ => ⟨S16384x8, .f32⟩
  | .hbm, ⟨8, _⟩ => ⟨S1x8, .f32⟩
  | .hbm, ⟨9, _⟩ => ⟨S4096x8, .bf16⟩
  | .hbm, ⟨10, _⟩ => ⟨S1x4096, .f32⟩
  | .hbm, ⟨11, _⟩ => ⟨S1024x4096, .bf16⟩
  | .hbm, ⟨12, _⟩ => ⟨S1x1024, .f32⟩
  | .hbm, ⟨13, _⟩ => ⟨S16384x1024, .f32⟩
  | .hbm, ⟨14, _⟩ => ⟨S8x2048x1024, .f32⟩
  | .local _ .vmem, ⟨0, _⟩ => ⟨S256x8, .f32⟩
  | .local _ .vmem, ⟨1, _⟩ => ⟨S256x8, .f32⟩
  | .local _ .vmem, ⟨2, _⟩ => ⟨S1x8, .f32⟩
  | .local _ .vmem, ⟨3, _⟩ => ⟨S4096x8, .bf16⟩
  | .local _ .vmem, ⟨4, _⟩ => ⟨S1x4096, .f32⟩
  | .local _ .vmem, ⟨5, _⟩ => ⟨S1024x4096, .bf16⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x2048x1024_S16384x1024 : S8x2048x1024.ShapeCasts S16384x1024
  slices_S16384x1024_S16384x8_0_0 : S16384x1024.Slices ![0, 0] S16384x8
  shapeCasts_S8_S1x8 : S8.ShapeCasts S1x8
  bitsLt_bf16_f32 : FTy.bits .bf16 < FTy.bits .f32
  shapeCasts_S4096_S1x4096 : S4096.ShapeCasts S1x4096
  shapeCasts_S1024_S1x1024 : S1024.ShapeCasts S1x1024
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S256x8 : S1x8.Broadcasts S256x8
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S16384x1024_S8x2048x1024 : S16384x1024.ShapeCasts S8x2048x1024
  dot_S256x8_S4096x8_S256x4096_1_1_0_0_n_n_wf : DotDims.WF S256x8 S4096x8 S256x4096 [1] [1] [0] [0] [] []
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8.size a ≤ S16384x8.size a
  hwx0_0 : ∀ i : grid0.Coords, EltTy.bits .f32 = 32 ∨ (Rect.block (s := S16384x8) S256x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x8.size a ≤ S4096x8.size a
  hwx0_2 : ∀ i : grid0.Coords, EltTy.bits .bf16 = 32 ∨ (Rect.block (s := S4096x8) S4096x8.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)

variable [Facts₀]

def dot_S256x8_S4096x8_S256x4096_1_1_0_0_n_n : DotDims S256x8 S4096x8 S256x4096 where
  lhsContracting := [1]
  rhsContracting := [1]
  lhsNonContracting := [0]
  rhsNonContracting := [0]
  lhsBatch := []
  rhsBatch := []
  wf := dot_S256x8_S4096x8_S256x4096_1_1_0_0_n_n_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v1) S256x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4096x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S8x2048x8 : Shape := ⟨3, ![8, 2048, 8]⟩
abbrev S_ : Shape := ⟨0, ![]⟩
abbrev S1x1x8 : Shape := ⟨3, ![1, 1, 8]⟩
abbrev S8x2048x4096 : Shape := ⟨3, ![8, 2048, 4096]⟩
abbrev S1x1x4096 : Shape := ⟨3, ![1, 1, 4096]⟩
abbrev S1x1x1024 : Shape := ⟨3, ![1, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S8x2048x8, .f32⟩
  | .hbm, ⟨7, _⟩ => ⟨S_, .f32⟩
  | .hbm, ⟨8, _⟩ => ⟨S8x2048x8, .f32⟩
  | .hbm, ⟨9, _⟩ => ⟨S8x2048x8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8x2048x8, .f32⟩
  | .hbm, ⟨14, _⟩ => ⟨S8x2048x8, .f32⟩
  | .hbm, ⟨15, _⟩ => ⟨S8, .f32⟩
  | .hbm, ⟨16, _⟩ => ⟨S8, .f32⟩
  | .hbm, ⟨17, _⟩ => ⟨S1x1x8, .f32⟩
  | .hbm, ⟨18, _⟩ => ⟨S8x2048x8, .f32⟩
  | .hbm, ⟨19, _⟩ => ⟨S8x2048x8, .f32⟩
  | .hbm, ⟨20, _⟩ => ⟨S8x2048x8, .f32⟩
  | .hbm, ⟨21, _⟩ => ⟨S1x1x8, .f32⟩
  | .hbm, ⟨22, _⟩ => ⟨S8x2048x8, .f32⟩
  | .hbm, ⟨23, _⟩ => ⟨S8x2048x8, .f32⟩
  | .hbm, ⟨24, _⟩ => ⟨S8x2048x8, .f32⟩
  | .hbm, ⟨25, _⟩ => ⟨S8x2048x8, .f32⟩
  | .hbm, ⟨26, _⟩ => ⟨S1x1x8, .f32⟩
  | .hbm, ⟨27, _⟩ => ⟨S8x2048x8, .f32⟩
  | .hbm, ⟨28, _⟩ => ⟨S8x2048x8, .f32⟩
  | .hbm, ⟨29, _⟩ => ⟨S8x2048x8, .f32⟩
  | .hbm, ⟨30, _⟩ => ⟨S1x1x8, .f32⟩
  | .hbm, ⟨31, _⟩ => ⟨S8x2048x8, .f32⟩
  | .hbm, ⟨32, _⟩ => ⟨S8x2048x8, .f32⟩
  | .hbm, ⟨33, _⟩ => ⟨S8x2048x8, .f32⟩
  | .hbm, ⟨34, _⟩ => ⟨S8x2048x8, .f32⟩
  | .hbm, ⟨35, _⟩ => ⟨S8x2048x8, .f32⟩
  | .hbm, ⟨36, _⟩ => ⟨S8x2048x4096, .f32⟩
  | .hbm, ⟨37, _⟩ => ⟨S1x1x4096, .f32⟩
  | .hbm, ⟨38, _⟩ => ⟨S8x2048x4096, .f32⟩
  | .hbm, ⟨39, _⟩ => ⟨S8x2048x4096, .f32⟩
  | .hbm, ⟨40, _⟩ => ⟨S_, .f32⟩
  | .hbm, ⟨41, _⟩ => ⟨S8x2048x4096, .f32⟩
  | .hbm, ⟨42, _⟩ => ⟨S8x2048x4096, .f32⟩
  | .hbm, ⟨43, _⟩ => ⟨S8x2048x1024, .f32⟩
  | .hbm, ⟨44, _⟩ => ⟨S1x1x1024, .f32⟩
  | .hbm, ⟨45, _⟩ => ⟨S8x2048x1024, .f32⟩
  | .hbm, ⟨46, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call0_cst : Ref sig .tc := ⟨.hbm, 40, rfl⟩
abbrev main_call0_v0 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  slices_S8x2048x1024_S8x2048x8_0_0_0 : S8x2048x1024.Slices ![0, 0, 0] S8x2048x8
  bcast_S_S8x2048x8 : S_.BroadcastsInDim S8x2048x8 (![] : Fin 0 → Fin S8x2048x8.rank)
  bcast_S_S8 : S_.BroadcastsInDim S8 (![] : Fin 0 → Fin S8.rank)
  bcast_S8_S1x1x8_2 : S8.BroadcastsInDim S1x1x8 (![2] : Fin 1 → Fin S1x1x8.rank)
  bcast_S1x1x8_S8x2048x8_0_1_2 : S1x1x8.BroadcastsInDim S8x2048x8 (![0, 1, 2] : Fin 3 → Fin S8x2048x8.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  dot_S8x2048x8_S4096x8_S8x2048x4096_2_1_01_0_n_n_wf : DotDims.WF S8x2048x8 S4096x8 S8x2048x4096 [2] [1] [0, 1] [0] [] []
  dot_S8x2048x4096_S1024x4096_S8x2048x1024_2_1_01_0_n_n_wf : DotDims.WF S8x2048x4096 S1024x4096 S8x2048x1024 [2] [1] [0, 1] [0] [] []

variable [Facts₀]

def dot_S8x2048x8_S4096x8_S8x2048x4096_2_1_01_0_n_n : DotDims S8x2048x8 S4096x8 S8x2048x4096 where
  lhsContracting := [2]
  rhsContracting := [1]
  lhsNonContracting := [0, 1]
  rhsNonContracting := [0]
  lhsBatch := []
  rhsBatch := []
  wf := dot_S8x2048x8_S4096x8_S8x2048x4096_2_1_01_0_n_n_wf
def dot_S8x2048x4096_S1024x4096_S8x2048x1024_2_1_01_0_n_n : DotDims S8x2048x4096 S1024x4096 S8x2048x1024 where
  lhsContracting := [2]
  rhsContracting := [1]
  lhsNonContracting := [0, 1]
  rhsNonContracting := [0]
  lhsBatch := []
  rhsBatch := []
  wf := dot_S8x2048x4096_S1024x4096_S8x2048x1024_2_1_01_0_n_n_wf

class Facts : Prop extends Facts₀ where

variable [Facts]
-- ==== Proof.CircuitHead.lean ====
/-
  The function both programs compute, row by row over the extended reals.

  A token is a row of the input; only its first eight features are used, one per wire. On wire `w` the state
  `|0⟩` is rotated about X by the feature `x` and about Y by the angle `θ`; with `c = cos`, `s = sin` of the
  half angles the amplitudes' squared moduli are `(cθ·cx)² + (sθ·sx)²` and `(sθ·cx)² + (cθ·sx)²`, and the
  measured value is their difference (`wireZ`). A hidden unit `f` is the positive part of an affine form of the
  eight measured values (`hidden`: weights row `f` of `W1`, offset `b1 f`), and output feature `e` is an affine
  form of the 4096 hidden units (`output`: weights row `e` of `W2`, offset `b2 e`). `result` lays the rows out
  over batch and position.

  The half is the number the word `0x3F000000` denotes and the threshold of the positive part the one
  `0x00000000` denotes; both programs print the same words, so neither is ever evaluated.
-/
import Idealize.ShloMosaic.PureOps.Ideal.Laws
import Idealize.ShloMosaic.Lib.ValueIdx

noncomputable section

open scoped BigOperators

namespace Cert.CircuitHead

open Idealize.ShloMosaic Idealize.ShloMosaic.ValueIdx

/-- The factor of the half angles. -/
abbrev half : EReal := Ideal.ofBits .f32 0x3F000000#32

/-- The threshold of the positive part. -/
abbrev floor0 : EReal := Ideal.ofBits .f32 0x00000000#32

/-- The measured value on one wire, from its feature `x` and its angle `θ`. -/
def wireZ (x θ : EReal) : EReal :=
  ((Ideal.cos (half * θ) * Ideal.cos (half * x)) * (Ideal.cos (half * θ) * Ideal.cos (half * x))
      + (Ideal.sin (half * θ) * Ideal.sin (half * x)) * (Ideal.sin (half * θ) * Ideal.sin (half * x)))
    - ((Ideal.sin (half * θ) * Ideal.cos (half * x)) * (Ideal.sin (half * θ) * Ideal.cos (half * x))
      + (Ideal.cos (half * θ) * Ideal.sin (half * x)) * (Ideal.cos (half * θ) * Ideal.sin (half * x)))

/-- Hidden unit `f` of a row with features `xr`. -/
def hidden (xr θ : Fin 8 → EReal) (W1 : (⟨2, ![4096, 8]⟩ : Shape).Idx → EReal) (b1 : Fin 4096 → EReal)
    (f : Fin 4096) : EReal :=
  max (∑ w : Fin 8, wireZ (xr w) (θ w) * W1 (ix2 f w) + b1 f) floor0

/-- Output feature `e` of a row with features `xr`. -/
def output (xr θ : Fin 8 → EReal) (W1 : (⟨2, ![4096, 8]⟩ : Shape).Idx → EReal) (b1 : Fin 4096 → EReal)
    (W2 : (⟨2, ![1024, 4096]⟩ : Shape).Idx → EReal) (b2 : Fin 1024 → EReal) (e : Fin 1024) : EReal :=
  ∑ f : Fin 4096, hidden xr θ W1 b1 f * W2 (ix2 e f) + b2 e

/-- A wire's number as a feature's. -/
abbrev feat (w : Fin 8) : Fin 1024 := Fin.castLE (by decide) w

/-- The whole result: at batch `b`, position `s`, feature `e`, the output feature `e` of the row `x[b, s, ·]`. -/
def result (x : (⟨3, ![8, 2048, 1024]⟩ : Shape).Idx → EReal) (θ : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal) :
    (⟨3, ![8, 2048, 1024]⟩ : Shape).Idx → EReal :=
  fun i => output (fun w => x (ix3 (i 0) (i 1) (feat w))) (fun w => θ (ix1 w)) W1 (fun f => b1 (ix1 f)) W2
    (fun e => b2 (ix1 e)) (i 2)

/-- The same rows laid out flat: row `r` of the 16384, feature `e`, from the rows' first eight features `xq` and
    the angles, offsets given as one-row matrices. -/
def flat (xq : (⟨2, ![16384, 8]⟩ : Shape).Idx → EReal) (θ : (⟨2, ![1, 8]⟩ : Shape).Idx → EReal)
    (W1 : (⟨2, ![4096, 8]⟩ : Shape).Idx → EReal) (b1 : (⟨2, ![1, 4096]⟩ : Shape).Idx → EReal)
    (W2 : (⟨2, ![1024, 4096]⟩ : Shape).Idx → EReal) (b2 : (⟨2, ![1, 1024]⟩ : Shape).Idx → EReal) :
    (⟨2, ![16384, 1024]⟩ : Shape).Idx → EReal :=
  fun i => output (fun w => xq (ix2 (i 0) w)) (fun w => θ (ix2 0 w)) W1 (fun f => b1 (ix2 0 f)) W2
    (fun e => b2 (ix2 0 e)) (i 1)

end Cert.CircuitHead

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.BlockRows.lean ====
/-
  What the kernel's body computes at one grid point, row by row.

  The body reads a block of 256 rows of eight features, the eight angles, both weight matrices whole and both offset
  rows, and stores one 256 × 1024 block. It works in three stretches: the measured values of each row's eight wires
  (`measured`), the 4096 hidden units of each row (`hiddenRows`: a contraction over the eight wires, the offset added,
  the positive part taken), and the 1024 output features of each row (`outputRows`: a contraction over the hidden
  units, the offset added). Over the extended reals a change of float format is the identity and a contraction into a
  zero accumulator is the plain sum of products, so at row `p` and feature `e` the stored value is
  `CircuitHead.output` of row `p` of the feature block (`payload_apply`).
-/
import proofs.«113064_j65481071396057_1_alg».proof.Proof.Gen.KernelIdeal.Skeleton
import proofs.«113064_j65481071396057_1_alg».proof.Proof.CircuitHead
import proofs.«113064_j65481071396057_1_alg».proof.Proof.LibContraction
import Idealize.ShloMosaic.Lib.Pipeline.Value
import Idealize.ShloMosaic.Lib.ValueLayout

noncomputable section

open scoped BigOperators

namespace Cert.BlockRows

open Idealize.ShloMosaic Idealize.ShloMosaic.ValueIdx
open Cert.KernelIdeal Cert.KernelIdeal.Gen Cert.CircuitHead

/-! ## The body's stretches -/

section Stretches

variable {F : FTy → Type} [FloatOps F]

/-- Half of every feature of the block. -/
def halfRows (x0 : Vec F S256x8 .f32) : FVec F S256x8 .f32 :=
  mulf (broadcast S256x8 (Scalar.ofBits .f32 0x3F000000#32)) (shapeCast S256x8 x0 shapeCasts_S256x8_S256x8)

/-- Half of every angle. -/
def halfAngles (x1 : Vec F S1x8 .f32) : FVec F S1x8 .f32 :=
  mulf (broadcast S1x8 (Scalar.ofBits .f32 0x3F000000#32)) (shapeCast S1x8 x1 shapeCasts_S1x8_S1x8)

/-- The square of a per-wire factor times a per-row-and-wire factor. -/
def sqProd (a : FVec F S1x8 .f32) (b : FVec F S256x8 .f32) : FVec F S256x8 .f32 :=
  mulf (mulf (broadcastTo S256x8 a broadcasts_S1x8_S256x8) b) (mulf (broadcastTo S256x8 a broadcasts_S1x8_S256x8) b)

/-- The measured values of the block's rows. -/
def measured (x0 : Vec F S256x8 .f32) (x1 : Vec F S1x8 .f32) : FVec F S256x8 .f32 :=
  subf (addf (sqProd (cos (halfAngles x1)) (cos (halfRows x0))) (sqProd (sin (halfAngles x1)) (sin (halfRows x0))))
    (addf (sqProd (sin (halfAngles x1)) (cos (halfRows x0))) (sqProd (cos (halfAngles x1)) (sin (halfRows x0))))

/-- The hidden units of the block's rows. -/
def hiddenRows (q : FVec F S256x8 .f32) (x2 : Vec F S4096x8 .bf16) (x3 : Vec F S1x4096 .f32) :
    FVec F S256x4096 .f32 :=
  maximumf
    (addf
      (matmul dot_S256x8_S4096x8_S256x4096_1_1_0_0_n_n none (truncf .bf16 q bitsLt_bf16_f32)
        (shapeCast S4096x8 x2 shapeCasts_S4096x8_S4096x8) (constant S256x4096 .f32 0x00000000#32))
      (broadcastTo S256x4096 (shapeCast S1x4096 x3 shapeCasts_S1x4096_S1x4096) broadcasts_S1x4096_S256x4096))
    (broadcast S256x4096 (Scalar.ofBits .f32 0x00000000#32))

/-- The output features of the block's rows. -/
def outputRows (h : FVec F S256x4096 .f32) (x4 : Vec F S1024x4096 .bf16) (x5 : Vec F S1x1024 .f32) :
    FVec F S256x1024 .f32 :=
  addf
    (matmul dot_S256x4096_S1024x4096_S256x1024_1_1_0_0_n_n none (truncf .bf16 h bitsLt_bf16_f32)
      (shapeCast S1024x4096 x4 shapeCasts_S1024x4096_S1024x4096) (constant S256x1024 .f32 0x00000000#32))
    (broadcastTo S256x1024 (shapeCast S1x1024 x5 shapeCasts_S1x1024_S1x1024) broadcasts_S1x1024_S256x1024)

/-- The stored value is the three stretches composed. -/
theorem payload_eq (x0 : Vec F S256x8 .f32) (x1 : Vec F S1x8 .f32) (x2 : Vec F S4096x8 .bf16)
    (x3 : Vec F S1x4096 .f32) (x4 : Vec F S1024x4096 .bf16) (x5 : Vec F S1x1024 .f32) :
    k0_pay1 (F := F) (k0_pay2 x0 x1 x2 x3 x4) x5 = outputRows (hiddenRows (measured x0 x1) x2 x3) x4 x5 := rfl

end Stretches

/-! ## Each stretch at a row -/

/-- A per-wire factor spread over the rows reads the wire's entry. -/
theorem sqProd_apply (a : FVec Ideal S1x8 .f32) (b : FVec Ideal S256x8 .f32) (p : Fin 256) (w : Fin 8) :
    sqProd a b (ix2 p w) = (a (ix2 (0 : Fin 1) w) * b (ix2 p w)) * (a (ix2 (0 : Fin 1) w) * b (ix2 p w)) := by
  unfold sqProd
  rw [mulf_apply, mulf_apply, broadcastTo_1b_ab_apply]

/-- Row `p`, wire `w` of the measured values is the wire's value at the row's feature and the wire's angle. -/
theorem measured_apply (x0 : Vec Ideal S256x8 .f32) (x1 : Vec Ideal S1x8 .f32) (p : Fin 256) (w : Fin 8) :
    measured x0 x1 (ix2 p w) = wireZ (x0 (ix2 p w)) (x1 (ix2 (0 : Fin 1) w)) := by
  unfold measured
  rw [subf_apply, addf_apply, addf_apply, sqProd_apply, sqProd_apply, sqProd_apply, sqProd_apply]
  unfold halfRows halfAngles
  rw [shapeCast_self, shapeCast_self]
  rfl

/-! ## The two contractions, coordinate by coordinate

Both contract axis 1 of the left operand with axis 1 of the right one, and have no batch axis: at result index
`(p, f)` and position `k` the left operand is read at `(p, k)` and the right one at `(f, k)`. -/

open Cert.Lib.Contraction

theorem wires_lhs0 (j : S256x4096.Idx) (k : dot_S256x8_S4096x8_S256x4096_1_1_0_0_n_n.contr.Idx) :
    (dot_S256x8_S4096x8_S256x4096_1_1_0_0_n_n.lhsIdx j k 0).val = (j 0).val :=
  lhs_free dot_S256x8_S4096x8_S256x4096_1_1_0_0_n_n rfl rfl j k (by decide)
theorem wires_lhs1 (j : S256x4096.Idx) (w : Fin 8) :
    (dot_S256x8_S4096x8_S256x4096_1_1_0_0_n_n.lhsIdx j ((contrFin dot_S256x8_S4096x8_S256x4096_1_1_0_0_n_n (cl := 1) rfl 8 rfl).symm w) 1).val = w.val :=
  lhs_contracted dot_S256x8_S4096x8_S256x4096_1_1_0_0_n_n (cl := 1) rfl 8 rfl j w
theorem wires_rhs0 (j : S256x4096.Idx) (k : dot_S256x8_S4096x8_S256x4096_1_1_0_0_n_n.contr.Idx) :
    (dot_S256x8_S4096x8_S256x4096_1_1_0_0_n_n.rhsIdx j k 0).val = (j 1).val :=
  rhs_free dot_S256x8_S4096x8_S256x4096_1_1_0_0_n_n rfl rfl rfl rfl j k (by decide)
theorem wires_rhs1 (j : S256x4096.Idx) (w : Fin 8) :
    (dot_S256x8_S4096x8_S256x4096_1_1_0_0_n_n.rhsIdx j ((contrFin dot_S256x8_S4096x8_S256x4096_1_1_0_0_n_n (cl := 1) rfl 8 rfl).symm w) 1).val = w.val :=
  rhs_contracted dot_S256x8_S4096x8_S256x4096_1_1_0_0_n_n (cl := 1) (cr := 1) rfl rfl 8 rfl j w

theorem units_lhs0 (j : S256x1024.Idx) (k : dot_S256x4096_S1024x4096_S256x1024_1_1_0_0_n_n.contr.Idx) :
    (dot_S256x4096_S1024x4096_S256x1024_1_1_0_0_n_n.lhsIdx j k 0).val = (j 0).val :=
  lhs_free dot_S256x4096_S1024x4096_S256x1024_1_1_0_0_n_n rfl rfl j k (by decide)
theorem units_lhs1 (j : S256x1024.Idx) (f : Fin 4096) :
    (dot_S256x4096_S1024x4096_S256x1024_1_1_0_0_n_n.lhsIdx j ((contrFin dot_S256x4096_S1024x4096_S256x1024_1_1_0_0_n_n (cl := 1) rfl 4096 rfl).symm f) 1).val = f.val :=
  lhs_contracted dot_S256x4096_S1024x4096_S256x1024_1_1_0_0_n_n (cl := 1) rfl 4096 rfl j f
theorem units_rhs0 (j : S256x1024.Idx) (k : dot_S256x4096_S1024x4096_S256x1024_1_1_0_0_n_n.contr.Idx) :
    (dot_S256x4096_S1024x4096_S256x1024_1_1_0_0_n_n.rhsIdx j k 0).val = (j 1).val :=
  rhs_free dot_S256x4096_S1024x4096_S256x1024_1_1_0_0_n_n rfl rfl rfl rfl j k (by decide)
theorem units_rhs1 (j : S256x1024.Idx) (f : Fin 4096) :
    (dot_S256x4096_S1024x4096_S256x1024_1_1_0_0_n_n.rhsIdx j ((contrFin dot_S256x4096_S1024x4096_S256x1024_1_1_0_0_n_n (cl := 1) rfl 4096 rfl).symm f) 1).val = f.val :=
  rhs_contracted dot_S256x4096_S1024x4096_S256x1024_1_1_0_0_n_n (cl := 1) (cr := 1) rfl rfl 4096 rfl j f

/-- Row `p`, hidden unit `f`: the positive part of the row's measured values against row `f` of the weights, plus
    the offset. -/
theorem hiddenRows_apply (q : FVec Ideal S256x8 .f32) (x2 : Vec Ideal S4096x8 .bf16) (x3 : Vec Ideal S1x4096 .f32)
    (p : Fin 256) (f : Fin 4096) :
    hiddenRows q x2 x3 (ix2 p f)
      = max (∑ w : Fin 8, q (ix2 p w) * x2 (ix2 f w) + x3 (ix2 (0 : Fin 1) f)) floor0 := by
  unfold hiddenRows
  rw [maximumf_apply, addf_apply, broadcastTo_1b_ab_apply, shapeCast_self, shapeCast_self]
  simp only [matmul]
  rw [Ideal.matmul_constant_zero_apply, sum_contr dot_S256x8_S4096x8_S256x4096_1_1_0_0_n_n (cl := 1) rfl 8 rfl]
  refine congrArg₂ max (congrArg₂ (· + ·) (Finset.sum_congr rfl fun w _ => ?_) rfl) rfl
  have el : dot_S256x8_S4096x8_S256x4096_1_1_0_0_n_n.lhsIdx (ix2 p f) ((contrFin dot_S256x8_S4096x8_S256x4096_1_1_0_0_n_n (cl := 1) rfl 8 rfl).symm w) = ix2 p w :=
    funext fun a => Fin.ext (by
      match a with
      | ⟨0, _⟩ => exact wires_lhs0 _ _
      | ⟨1, _⟩ => exact wires_lhs1 _ _)
  have er : dot_S256x8_S4096x8_S256x4096_1_1_0_0_n_n.rhsIdx (ix2 p f) ((contrFin dot_S256x8_S4096x8_S256x4096_1_1_0_0_n_n (cl := 1) rfl 8 rfl).symm w) = ix2 f w :=
    funext fun a => Fin.ext (by
      match a with
      | ⟨0, _⟩ => exact wires_rhs0 _ _
      | ⟨1, _⟩ => exact wires_rhs1 _ _)
  rw [el, er]
  rfl

/-- Row `p`, output feature `e`: the row's hidden units against row `e` of the weights, plus the offset. -/
theorem outputRows_apply (h : FVec Ideal S256x4096 .f32) (x4 : Vec Ideal S1024x4096 .bf16) (x5 : Vec Ideal S1x1024 .f32)
    (p : Fin 256) (e : Fin 1024) :
    outputRows h x4 x5 (ix2 p e) = ∑ f : Fin 4096, h (ix2 p f) * x4 (ix2 e f) + x5 (ix2 (0 : Fin 1) e) := by
  unfold outputRows
  rw [addf_apply, broadcastTo_1b_ab_apply, shapeCast_self, shapeCast_self]
  simp only [matmul]
  rw [Ideal.matmul_constant_zero_apply, sum_contr dot_S256x4096_S1024x4096_S256x1024_1_1_0_0_n_n (cl := 1) rfl 4096 rfl]
  refine congrArg₂ (· + ·) (Finset.sum_congr rfl fun f _ => ?_) rfl
  have el : dot_S256x4096_S1024x4096_S256x1024_1_1_0_0_n_n.lhsIdx (ix2 p e) ((contrFin dot_S256x4096_S1024x4096_S256x1024_1_1_0_0_n_n (cl := 1) rfl 4096 rfl).symm f) = ix2 p f :=
    funext fun a => Fin.ext (by
      match a with
      | ⟨0, _⟩ => exact units_lhs0 _ _
      | ⟨1, _⟩ => exact units_lhs1 _ _)
  have er : dot_S256x4096_S1024x4096_S256x1024_1_1_0_0_n_n.rhsIdx (ix2 p e) ((contrFin dot_S256x4096_S1024x4096_S256x1024_1_1_0_0_n_n (cl := 1) rfl 4096 rfl).symm f) = ix2 e f :=
    funext fun a => Fin.ext (by
      match a with
      | ⟨0, _⟩ => exact units_rhs0 _ _
      | ⟨1, _⟩ => exact units_rhs1 _ _)
  rw [el, er]
  rfl

/-! ## The stored block at a row -/

/-- Row `p`, feature `e` of the stored block is the row function of row `p` of the feature block. -/
theorem payload_apply (x0 : Vec Ideal S256x8 .f32) (x1 : Vec Ideal S1x8 .f32) (x2 : Vec Ideal S4096x8 .bf16)
    (x3 : Vec Ideal S1x4096 .f32) (x4 : Vec Ideal S1024x4096 .bf16) (x5 : Vec Ideal S1x1024 .f32)
    (p : Fin 256) (e : Fin 1024) :
    k0_pay1 (F := Ideal) (k0_pay2 x0 x1 x2 x3 x4) x5 (ix2 p e)
      = output (fun w => x0 (ix2 p w)) (fun w => x1 (ix2 (0 : Fin 1) w)) x2 (fun f => x3 (ix2 (0 : Fin 1) f)) x4
          (fun e => x5 (ix2 (0 : Fin 1) e)) e := by
  rw [payload_eq, outputRows_apply]
  unfold output Cert.CircuitHead.hidden
  simp only [hiddenRows_apply, measured_apply]

end Cert.BlockRows

end
-- ==== Proof.KernelArray.lean ====
/-
  From blocks to the whole array.

  The grid has 64 points; point `t` reads rows `256 t … 256 t + 255` of the feature array and the other five arrays
  whole, and writes back rows `256 t … 256 t + 255` of the result array. What it writes back is that block of ONE
  function of the arrays the region finds, `CircuitHead.flat` (`flushed_eq`: the stored block at a row is the row
  function of the same row of the feature block, and the feature block's row `p` is the array's row `256 t + p`);
  the 64 blocks cover the 16384 rows (`cover`: row `r` lies in block `r / 256`), so the result array ends as
  `flat` of those arrays (`final`).
-/
import proofs.«113064_j65481071396057_1_alg».proof.Proof.Gen.KernelIdeal.Frame
import proofs.«113064_j65481071396057_1_alg».proof.Proof.BlockRows
import Idealize.ShloMosaic.Lib.Pipeline.Value

set_option maxRecDepth 16384

noncomputable section

open scoped BigOperators

namespace Cert.KernelArray

open Idealize.ShloMosaic Idealize.ShloMosaic.TcCoe Idealize.SL.Sem Idealize.ShloMosaic.ValueIdx
open Idealize.ShloMosaic.Pipeline (Dat)
open Cert.KernelIdeal Cert.KernelIdeal.Gen Cert.CircuitHead Cert.BlockRows

variable (m : (ℓ : Loc nD τ sig) → Buf (Elt Ideal) ℓ)

/-! ## The arrays the region finds -/

/-- The rows' first eight features. -/
abbrev feats (c : Dev nD) : S16384x8.Idx → EReal := V m c main_v1
/-- The angles, as one row. -/
abbrev angles (c : Dev nD) : S1x8.Idx → EReal := V m c main_v2
/-- The first weights. -/
abbrev weights1 (c : Dev nD) : S4096x8.Idx → EReal := V m c main_v3
/-- The first offsets, as one row. -/
abbrev offsets1 (c : Dev nD) : S1x4096.Idx → EReal := V m c main_v4
/-- The second weights. -/
abbrev weights2 (c : Dev nD) : S1024x4096.Idx → EReal := V m c main_v5
/-- The second offsets, as one row. -/
abbrev offsets2 (c : Dev nD) : S1x1024.Idx → EReal := V m c main_v6

/-- The row function over those arrays. -/
abbrev flatOf (c : Dev nD) : S16384x1024.Idx → EReal :=
  flat (feats m c) (angles m c) (weights1 m c) (offsets1 m c) (weights2 m c) (offsets2 m c)

/-! ## The blocks of a point -/

theorem origin2 : (![0, 0] : Fin 2 → Nat) = fun _ => 0 := funext fun a => by fin_cases a <;> rfl

/-- Point `t` is on block row `t` of the feature array and of the result array, and on the one block of each
    other array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Two rows with equal parts have equal output features. -/
theorem output_congr {xr xr' θ θ' : Fin 8 → EReal} {W1 W1' : (⟨2, ![4096, 8]⟩ : Shape).Idx → EReal}
    {b1 b1' : Fin 4096 → EReal} {W2 W2' : (⟨2, ![1024, 4096]⟩ : Shape).Idx → EReal} {b2 b2' : Fin 1024 → EReal}
    {e e' : Fin 1024} (h0 : xr = xr') (h1 : θ = θ') (h2 : W1 = W1') (h3 : b1 = b1') (h4 : W2 = W2') (h5 : b2 = b2')
    (h6 : e = e') : output xr θ W1 b1 W2 b2 e = output xr' θ' W1' b1' W2' b2' e' := by
  subst h0 h1 h2 h3 h4 h5 h6; rfl

/-- WHAT POINT `t` WRITES BACK is block `t` of the row function over the arrays the region finds. -/
theorem flushed_eq (c : Dev nD) (t : Fin cfg0.N) :
    (dats m 0 c).flushed 6 t = ((cfg0.win 6).blk t).view.read (Elt Ideal) (flatOf m c) := by
  show (cfg0.win 6).cut (grid0.coords t) ((dats m 0 c).after 6 t) = _
  rw [after0_6]
  unfold out0_6
  rw [View.canon_unit_zero origin2]
  simp only [View.ld_unit_zero (S := S256x8) origin2, View.ld_unit_zero (S := S1x8) origin2,
    View.ld_unit_zero (S := S4096x8) origin2, View.ld_unit_zero (S := S1x4096) origin2,
    View.ld_unit_zero (S := S1024x4096) origin2, View.ld_unit_zero (S := S1x1024) origin2]
  obtain ⟨a0, a1, b0, b1, c0, c1, d0, d1, e0, e1, f0, f1, g0, g1⟩ := idx_facts t
  funext j
  obtain ⟨p, e, rfl⟩ : ∃ (p : Fin 256) (e : Fin 1024), j = ix2 p e := ⟨j 0, j 1, eq_ix2 j⟩
  show k0_pay1 (k0_pay2 (iblk m c 0 t) (iblk m c 1 t) (iblk m c 2 t) (iblk m c 3 t) (iblk m c 4 t)) (iblk m c 5 t) (ix2 p e)
    = flat (feats m c) (angles m c) (weights1 m c) (offsets1 m c) (weights2 m c) (offsets2 m c)
        (((cfg0.win 6).blk t).view.emb (ix2 p e))
  refine (payload_apply (iblk m c 0 t) (iblk m c 1 t) (iblk m c 2 t) (iblk m c 3 t) (iblk m c 4 t) (iblk m c 5 t) p e).trans ?_
  unfold flat
  -- each block read is the array read at the block's place
  have h1 : ∀ y : S1x8.Idx, iblk m c 1 t y = angles m c y := fun y => by
    show V m c main_v2 (((cfg0.win 1).blk t).view.emb y) = V m c main_v2 y
    refine congrArg (V m c main_v2) (funext fun a => Fin.ext ?_)
    match a with
    | ⟨0, _⟩ => show win0_1.index t (0 : Fin 2) * 1 + 1 * (y 0).val = (y 0).val; omega
    | ⟨1, _⟩ => show win0_1.index t (1 : Fin 2) * 8 + 1 * (y 1).val = (y 1).val; omega
  have h2 : ∀ y : S4096x8.Idx, iblk m c 2 t y = weights1 m c y := fun y => by
    show V m c main_v3 (((cfg0.win 2).blk t).view.emb y) = V m c main_v3 y
    refine congrArg (V m c main_v3) (funext fun a => Fin.ext ?_)
    match a with
    | ⟨0, _⟩ => show win0_2.index t (0 : Fin 2) * 4096 + 1 * (y 0).val = (y 0).val; omega
    | ⟨1, _⟩ => show win0_2.index t (1 : Fin 2) * 8 + 1 * (y 1).val = (y 1).val; omega
  have h3 : ∀ y : S1x4096.Idx, iblk m c 3 t y = offsets1 m c y := fun y => by
    show V m c main_v4 (((cfg0.win 3).blk t).view.emb y) = V m c main_v4 y
    refine congrArg (V m c main_v4) (funext fun a => Fin.ext ?_)
    match a with
    | ⟨0, _⟩ => show win0_3.index t (0 : Fin 2) * 1 + 1 * (y 0).val = (y 0).val; omega
    | ⟨1, _⟩ => show win0_3.index t (1 : Fin 2) * 4096 + 1 * (y 1).val = (y 1).val; omega
  have h4 : ∀ y : S1024x4096.Idx, iblk m c 4 t y = weights2 m c y := fun y => by
    show V m c main_v5 (((cfg0.win 4).blk t).view.emb y) = V m c main_v5 y
    refine congrArg (V m c main_v5) (funext fun a => Fin.ext ?_)
    match a with
    | ⟨0, _⟩ => show win0_4.index t (0 : Fin 2) * 1024 + 1 * (y 0).val = (y 0).val; omega
    | ⟨1, _⟩ => show win0_4.index t (1 : Fin 2) * 4096 + 1 * (y 1).val = (y 1).val; omega
  have h5 : ∀ y : S1x1024.Idx, iblk m c 5 t y = offsets2 m c y := fun y => by
    show V m c main_v6 (((cfg0.win 5).blk t).view.emb y) = V m c main_v6 y
    refine congrArg (V m c main_v6) (funext fun a => Fin.ext ?_)
    match a with
    | ⟨0, _⟩ => show win0_5.index t (0 : Fin 2) * 1 + 1 * (y 0).val = (y 0).val; omega
    | ⟨1, _⟩ => show win0_5.index t (1 : Fin 2) * 1024 + 1 * (y 1).val = (y 1).val; omega
  refine output_congr (funext fun w => ?_) (funext fun w => h1 _) (funext fun y => h2 y) (funext fun f => h3 _)
    (funext fun y => h4 y) (funext fun e' => h5 _) (Fin.ext ?_)
  · show V m c main_v1 (((cfg0.win 0).blk t).view.emb (ix2 p w))
      = V m c main_v1 (ix2 (((cfg0.win 6).blk t).view.emb (ix2 p e) 0) w)
    refine congrArg (V m c main_v1) (funext fun a => Fin.ext ?_)
    match a with
    | ⟨0, _⟩ => show win0_0.index t (0 : Fin 2) * 256 + 1 * p.val = win0_6.index t (0 : Fin 2) * 256 + 1 * p.val; omega
    | ⟨1, _⟩ => show win0_0.index t (1 : Fin 2) * 8 + 1 * w.val = w.val; omega
  · show e.val = win0_6.index t (1 : Fin 2) * 1024 + 1 * e.val
    omega

/-! ## The blocks cover the result array -/

/-- An index of the result array is in point `t`'s block iff each coordinate is in the block's range on its axis. -/
theorem mem_blk (t : Fin cfg0.N) (i : S16384x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v7).slice (win0_6.rect t)).set ↔ _
  rw [View.set_slice_whole, Rect.mem_set_unit]
  exact Iff.rfl

/-- Row `r` lies in the block of point `r / 256`, which writes back. -/
theorem cover (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have hN : (i 0).val / 256 < cfg0.N := by show _ < grid0.N; rw [N_0]; omega
  refine ⟨⟨(i 0).val / 256, hN⟩, flush0_6 _, ?_⟩
  rw [mem_blk]
  obtain ⟨-, -, -, -, -, -, -, -, -, -, -, -, g0, g1⟩ := idx_facts ⟨(i 0).val / 256, hN⟩
  intro a
  match a with
  | ⟨0, _⟩ =>
    show win0_6.index ⟨(i 0).val / 256, hN⟩ (0 : Fin 2) * 256 ≤ (i 0).val
      ∧ (i 0).val < win0_6.index ⟨(i 0).val / 256, hN⟩ (0 : Fin 2) * 256 + 256
    rw [g0]
    show (i 0).val / 256 * 256 ≤ (i 0).val ∧ (i 0).val < (i 0).val / 256 * 256 + 256
    omega
  | ⟨1, _⟩ =>
    show win0_6.index ⟨(i 0).val / 256, hN⟩ (1 : Fin 2) * 1024 ≤ (i 1).val
      ∧ (i 1).val < win0_6.index ⟨(i 0).val / 256, hN⟩ (1 : Fin 2) * 1024 + 1024
    rw [g1]
    omega

/-- THE RESULT ARRAY after the run is the row function over the arrays the region finds. -/
theorem final (c : Dev nD) : (dats m 0 c).arrAt 6 cfg0.N = flatOf m c :=
  (dats m 0 c).arrAt_eq_of_cover 6 (flatOf m c) (fun t _ => flushed_eq m c t) cover

end Cert.KernelArray

end
-- ==== Proof.KernelResult.lean ====
/-
  The kernel program's result as a function of its arguments.

  Before the region the program lays the input out flat, [8, 2048, 1024] as [16384, 1024] (row `2048 b + s` is
  token (b, s)), keeps the first eight features of every row, turns the angles and both offset vectors into one-row
  matrices, and changes the weights' format, which over the extended reals changes nothing. After the region it
  lays the [16384, 1024] result out as [8, 2048, 1024] again. So the element (b, s, e) of the final result is the
  element (2048 b + s, e) of the region's array, the row function of row `2048 b + s` of the flat features, which
  are the first eight features of token (b, s): `CircuitHead.result` of the arguments (`tail_eq`, `run`).
-/
import proofs.«113064_j65481071396057_1_alg».proof.Proof.KernelArray
import Idealize.ShloMosaic.Lib.StableHlo.Run
import Idealize.ShloMosaic.Lib.ValueLayout

set_option maxRecDepth 16384

noncomputable section

open scoped BigOperators

namespace Cert.KernelResult

open Idealize.ShloMosaic Idealize.ShloMosaic.TcCoe Idealize.SL.Sem Idealize.ShloMosaic.StableHlo
open Idealize.ShloMosaic.ValueIdx
open Cert.KernelIdeal Cert.KernelIdeal.Gen Cert.CircuitHead Cert.KernelArray

variable (m : (ℓ : Loc nD τ sig) → Buf (Elt Ideal) ℓ) (ρ : Dev nD → PrngReg)

/-! ## The arrays the region finds, from the arguments -/

theorem feats_eq (c : Dev nD) :
    feats m c = extractStridedSlice S16384x8 ![0, 0]
      (shapeCast S16384x1024 (m ((c : Thread nD τ).loc main_arg0)) shapeCasts_S8x2048x1024_S16384x1024)
      slices_S16384x1024_S16384x8_0_0 := by
  show StableHlo.after hostOps0 (fun b => m (c, b)) (Proc.devRef .tc main_v1) = _
  after_results
  rfl

theorem angles_eq (c : Dev nD) :
    angles m c = shapeCast S1x8 (m ((c : Thread nD τ).loc main_arg1)) shapeCasts_S8_S1x8 := by
  show StableHlo.after hostOps0 (fun b => m (c, b)) (Proc.devRef .tc main_v2) = _
  after_results
  rfl

theorem weights1_eq (c : Dev nD) : weights1 m c = m ((c : Thread nD τ).loc main_arg2) := by
  show StableHlo.after hostOps0 (fun b => m (c, b)) (Proc.devRef .tc main_v3) = _
  after_results
  rfl

theorem offsets1_eq (c : Dev nD) :
    offsets1 m c = shapeCast S1x4096 (m ((c : Thread nD τ).loc main_arg3)) shapeCasts_S4096_S1x4096 := by
  show StableHlo.after hostOps0 (fun b => m (c, b)) (Proc.devRef .tc main_v4) = _
  after_results
  rfl

theorem weights2_eq (c : Dev nD) : weights2 m c = m ((c : Thread nD τ).loc main_arg4) := by
  show StableHlo.after hostOps0 (fun b => m (c, b)) (Proc.devRef .tc main_v5) = _
  after_results
  rfl

theorem offsets2_eq (c : Dev nD) :
    offsets2 m c = shapeCast S1x1024 (m ((c : Thread nD τ).loc main_arg5)) shapeCasts_S1024_S1x1024 := by
  show StableHlo.after hostOps0 (fun b => m (c, b)) (Proc.devRef .tc main_v6) = _
  after_results
  rfl

/-- Flat row `2048 b + s`, feature `w` is feature `w` of token (b, s). -/
theorem feats_apply (c : Dev nD) (b : Fin 8) (s : Fin 2048) (w : Fin 8) (r : Fin 16384) (hr : r.val = b.val * 2048 + s.val) :
    feats m c (ix2 r w) = m ((c : Thread nD τ).loc main_arg0) (ix3 b s (feat w)) := by
  rw [feats_eq]
  rw [extractStridedSlice_apply ![0, 0] _ slices_S16384x1024_S16384x8_0_0 (ix2 r w) (ix2 r (feat w))
    (fun a => match a with
      | ⟨0, _⟩ => by show r.val = 0 + r.val; omega
      | ⟨1, _⟩ => by show w.val = 0 + w.val; omega)]
  exact shapeCast_apply _ _ (ix2 r (feat w)) (ix3 b s (feat w)) (by
    rw [Shape.rowMajor_val_three, Shape.rowMajor_val_two]
    show (b.val * 2048 + s.val) * 1024 + w.val = r.val * 1024 + w.val
    rw [hr])

/-! ## The result after the last host line -/

/-- The final result is the row function of the arguments, laid out over batch and position. -/
theorem tail_eq (c : Dev nD) :
    Pipeline.afterTail₀ cfgs (dats m) 0 (V0 m) [hostOps1] c main_v8
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Pipeline.afterTail₀
  show StableHlo.after hostOps1 _ (Proc.devRef .tc main_v8) = _
  after_results
  funext i
  obtain ⟨b, s, e, rfl⟩ : ∃ (b : Fin 8) (s : Fin 2048) (e : Fin 1024), i = ix3 b s e := ⟨i 0, i 1, i 2, eq_ix3 i⟩
  have hr : b.val * 2048 + s.val < 16384 := by have := b.isLt; have := s.isLt; omega
  show shapeCast S8x2048x1024
      (Pipeline.withArrays (cfgs 0).spec c (V0 m c) (fun w => (dats m 0 c).arrAt w (cfgs 0).N) (Proc.devRef .tc main_v7))
      shapeCasts_S16384x1024_S8x2048x1024 (ix3 b s e) = _
  rw [shapeCast_apply _ shapeCasts_S16384x1024_S8x2048x1024 (ix3 b s e) (ix2 ⟨b.val * 2048 + s.val, hr⟩ e) (by
    rw [Shape.rowMajor_val_two, Shape.rowMajor_val_three]; rfl)]
  have harr : Pipeline.withArrays (cfgs 0).spec c (V0 m c) (fun w => (dats m 0 c).arrAt w (cfgs 0).N) (Proc.devRef .tc main_v7)
      = (dats m 0 c).arrAt 6 cfg0.N :=
    Pipeline.withArrays_arr spec0 launch0.win.arr_inj c _ _ 6
  rw [harr, final]
  show flat (feats m c) (angles m c) (weights1 m c) (offsets1 m c) (weights2 m c) (offsets2 m c)
      (ix2 ⟨b.val * 2048 + s.val, hr⟩ e) = _
  unfold flat result
  refine output_congr (funext fun w => feats_apply m c b s w ⟨_, hr⟩ rfl) (funext fun w => ?_) (weights1_eq m c)
    (funext fun f => ?_) (weights2_eq m c) (funext fun e' => ?_) rfl
  · rw [angles_eq]; exact shapeCast_a_1a_apply _ _ 0 w
  · rw [offsets1_eq]; exact shapeCast_a_1a_apply _ _ 0 f
  · rw [offsets2_eq]; exact shapeCast_a_1a_apply _ _ 0 e'

/-! ## The run -/

/-- Every weakly fair execution of the kernel program terminates with its result at the row function of the
    arguments and the arguments unchanged. -/
theorem run : θ_run defs (onTc (τ := τ) (main (F := Ideal))) ⟨m, fun _ => 0, ρ⟩ fun r => ∀ c : Dev nD,
      r.2.mem ((c.tc : Thread nD τ).loc main_v8)
        = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelResult

end
-- ==== Proof.ReferenceRows.lean ====
/-
  The reference, read row by row.

  Its operations act on the whole [8, 2048, ·] arrays, but each result element depends on one row only: the measured
  values of row (b, s) on the row's first eight features and the angles (`measured_apply`), a hidden unit on the
  row's measured values (`hidden_apply`: the contraction over the wires, the offset, the maximum with the zero
  splat), an output feature on the row's hidden units. So the final stage is `CircuitHead.result` of the
  arguments (`result_eq`).
-/
import proofs.«113064_j65481071396057_1_alg».proof.Proof.Gen.ReferenceIdeal.Read
import proofs.«113064_j65481071396057_1_alg».proof.Proof.CircuitHead

noncomputable section

open scoped BigOperators

namespace Cert.ReferenceRows

open Idealize.ShloMosaic Idealize.ShloMosaic.ValueIdx
open Cert.ReferenceIdeal Cert.ReferenceIdeal.Read Cert.CircuitHead

variable (x0 : (⟨S8x2048x1024, .f32⟩ : BufTy).Contents (Elt Ideal)) (x1 : (⟨S8, .f32⟩ : BufTy).Contents (Elt Ideal))
  (x2 : (⟨S4096x8, .f32⟩ : BufTy).Contents (Elt Ideal)) (x3 : (⟨S4096, .f32⟩ : BufTy).Contents (Elt Ideal))
  (x4 : (⟨S1024x4096, .f32⟩ : BufTy).Contents (Elt Ideal)) (x5 : (⟨S1024, .f32⟩ : BufTy).Contents (Elt Ideal))

/-! ## Where each stage reads its operands -/

theorem slice_at (b : Fin 8) (s : Fin 2048) (w : Fin 8) : idx_main_v0 (ix3 b s w) = ix3 b s (feat w) := by
  funext a; match a with | ⟨0, _⟩ => rfl | ⟨1, _⟩ => rfl | ⟨2, _⟩ => rfl

theorem angle_at9 (b : Fin 8) (s : Fin 2048) (w : Fin 8) : idx_main_v9 (idx_main_v10 (ix3 b s w)) = ix1 w := by
  funext a; match a with | ⟨0, _⟩ => rfl
theorem angle_at13 (b : Fin 8) (s : Fin 2048) (w : Fin 8) : idx_main_v13 (idx_main_v14 (ix3 b s w)) = ix1 w := by
  funext a; match a with | ⟨0, _⟩ => rfl
theorem angle_at18 (b : Fin 8) (s : Fin 2048) (w : Fin 8) : idx_main_v18 (idx_main_v19 (ix3 b s w)) = ix1 w := by
  funext a; match a with | ⟨0, _⟩ => rfl
theorem angle_at22 (b : Fin 8) (s : Fin 2048) (w : Fin 8) : idx_main_v22 (idx_main_v23 (ix3 b s w)) = ix1 w := by
  funext a; match a with | ⟨0, _⟩ => rfl

/-! ## The measured values -/

/-- Row (b, s), wire `w` of the measured values. -/
theorem measured_apply (b : Fin 8) (s : Fin 2048) (w : Fin 8) :
    val_main_v27 (F := Ideal) x0 x1 (ix3 b s w) = wireZ (x0 (ix3 b s (feat w))) (x1 (ix1 w)) := by
  simp only [val_main_v27_apply, val_main_v17_apply, val_main_v26_apply, val_main_v12_apply, val_main_v16_apply,
    val_main_v21_apply, val_main_v25_apply, val_main_v11_apply, val_main_v15_apply, val_main_v20_apply,
    val_main_v24_apply, val_main_v10_apply, val_main_v14_apply, val_main_v19_apply, val_main_v23_apply,
    val_main_v9_apply, val_main_v13_apply, val_main_v18_apply, val_main_v22_apply, val_main_v7_apply,
    val_main_v8_apply, val_main_v5_apply, val_main_v6_apply, val_main_v4_apply, val_main_v2_apply,
    val_main_v3_apply, val_main_v1_apply, val_main_v0_apply, val_main_cst_apply, val_main_cst_0_apply,
    slice_at, angle_at9, angle_at13, angle_at18, angle_at22]
  rfl

/-! ## The hidden units -/

theorem wires_left (b : Fin 8) (s : Fin 2048) (f : Fin 4096) (k : Fin 8) : lidx_main_v28 (ix3 b s f) k = ix3 b s k := by
  funext a; match a with | ⟨0, _⟩ => rfl | ⟨1, _⟩ => rfl | ⟨2, _⟩ => rfl
theorem wires_right (b : Fin 8) (s : Fin 2048) (f : Fin 4096) (k : Fin 8) : ridx_main_v28 (ix3 b s f) k = ix2 f k := by
  funext a; match a with | ⟨0, _⟩ => rfl | ⟨1, _⟩ => rfl
theorem offset1_at (b : Fin 8) (s : Fin 2048) (f : Fin 4096) : idx_main_v29 (idx_main_v30 (ix3 b s f)) = ix1 f := by
  funext a; match a with | ⟨0, _⟩ => rfl

/-- Row (b, s), hidden unit `f`. -/
theorem hidden_apply (b : Fin 8) (s : Fin 2048) (f : Fin 4096) :
    val_main_v32 (F := Ideal) x0 x1 x2 x3 (ix3 b s f)
      = hidden (fun w => x0 (ix3 b s (feat w))) (fun w => x1 (ix1 w)) x2 (fun f => x3 (ix1 f)) f := by
  rw [val_main_v32_apply, val_main_v31_apply, val_main_v28_apply, val_main_v30_apply, val_main_v29_apply,
    val_main_call0_v0_apply, val_main_call0_cst_apply, offset1_at]
  simp only [wires_left, wires_right, measured_apply]
  rfl

/-! ## The output features -/

theorem units_left (b : Fin 8) (s : Fin 2048) (e : Fin 1024) (k : Fin 4096) : lidx_main_v33 (ix3 b s e) k = ix3 b s k := by
  funext a; match a with | ⟨0, _⟩ => rfl | ⟨1, _⟩ => rfl | ⟨2, _⟩ => rfl
theorem units_right (b : Fin 8) (s : Fin 2048) (e : Fin 1024) (k : Fin 4096) : ridx_main_v33 (ix3 b s e) k = ix2 e k := by
  funext a; match a with | ⟨0, _⟩ => rfl | ⟨1, _⟩ => rfl
theorem offset2_at (b : Fin 8) (s : Fin 2048) (e : Fin 1024) : idx_main_v34 (idx_main_v35 (ix3 b s e)) = ix1 e := by
  funext a; match a with | ⟨0, _⟩ => rfl

/-- The reference's last stage is the row function laid out over batch and position. -/
theorem result_eq : val_main_v36 (F := Ideal) x0 x1 x2 x3 x4 x5 = result x0 x1 x2 x3 x4 x5 := by
  funext i
  obtain ⟨b, s, e, rfl⟩ : ∃ (b : Fin 8) (s : Fin 2048) (e : Fin 1024), i = ix3 b s e := ⟨i 0, i 1, i 2, eq_ix3 i⟩
  rw [val_main_v36_apply, val_main_v33_apply, val_main_v35_apply, val_main_v34_apply, offset2_at]
  simp only [units_left, units_right, hidden_apply]
  rfl

end Cert.ReferenceRows

end
-- ==== Proof.lean ====
/-
  The kernel and the reference compute one function over the extended reals.

  Both take a batch of token rows and, row by row, measure eight wires (one per leading feature, each a fixed
  trigonometric expression of half the feature and half the wire's angle), pass the eight values through an affine
  layer with a positive part, and through a second affine layer: `CircuitHead.result`. The kernel does this on 64
  blocks of 256 rows laid out flat, with the weights' format changed and each contraction accumulated onto zero; the
  reference on the whole [8, 2048, ·] arrays. Over the extended reals a format change is the identity and both
  contractions are the same finite sums of products in the same order of operands, so no law beyond reading each
  operation at an index is needed and the inputs' finiteness is never used.

  `KernelResult.run` is the kernel side (the frame run with its result array named: `BlockRows` for a block's rows,
  `KernelArray` for the blocks' cover, `KernelResult` for the host lines around the region), `ReferenceRows.result_eq`
  the reference side over its run read one operation at a time. The ideal pass rewrote nothing, so the kernel's
  idealization is its own text.
-/
import proofs.«113064_j65481071396057_1_alg».proof.Defs
import proofs.«113064_j65481071396057_1_alg».proof.Proof.Gen.Kernel
import proofs.«113064_j65481071396057_1_alg».proof.Proof.Gen.Kernel.Skeleton
import proofs.«113064_j65481071396057_1_alg».proof.Proof.Gen.Kernel.Launch
import proofs.«113064_j65481071396057_1_alg».proof.Proof.Gen.Kernel.Points
import proofs.«113064_j65481071396057_1_alg».proof.Proof.Gen.Kernel.Frame
import proofs.«113064_j65481071396057_1_alg».proof.Proof.Gen.KernelIdeal
import proofs.«113064_j65481071396057_1_alg».proof.Proof.Gen.KernelIdeal.Skeleton
import proofs.«113064_j65481071396057_1_alg».proof.Proof.Gen.KernelIdeal.Launch
import proofs.«113064_j65481071396057_1_alg».proof.Proof.Gen.KernelIdeal.Points
import proofs.«113064_j65481071396057_1_alg».proof.Proof.Gen.KernelIdeal.Frame
import proofs.«113064_j65481071396057_1_alg».proof.Proof.Gen.ReferenceIdeal
import proofs.«113064_j65481071396057_1_alg».proof.Proof.Gen.Pre_finite_inputs
import proofs.«113064_j65481071396057_1_alg».proof.Proof.Gen.ReferenceIdeal.Run
import proofs.«113064_j65481071396057_1_alg».proof.Proof.Gen.ReferenceIdeal.Read
import proofs.«113064_j65481071396057_1_alg».proof.Proof.KernelResult
import proofs.«113064_j65481071396057_1_alg».proof.Proof.ReferenceRows
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at `CircuitHead.result` of arguments that agree. -/
theorem algebraic : Cert.algebraic_KernelIdeal_ReferenceIdeal := by
  intro m ρ m' ρ' _ hagree
  refine ⟨_, Cert.KernelResult.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceRows.result_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
